-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S4x2048x2048 : Shape := ⟨3, ![4, 2048, 2048]⟩
abbrev S129x64 : Shape := ⟨2, ![129, 64]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S129x64 : S_.BroadcastsInDim S129x64 (![] : Fin 0 → Fin S129x64.rank)
  reducesTo_S129x64_S_d0_1 : S129x64.ReducesTo [0, 1] S_
  bcast_S_S4x2048x2048 : S_.BroadcastsInDim S4x2048x2048 (![] : Fin 0 → Fin S4x2048x2048.rank)
  reducesTo_S4x2048x2048_S_d0_1_2 : S4x2048x2048.ReducesTo [0, 1, 2] S_

variable [Facts]

def fn {F : FTy → Type} [FloatOps F] (main_arg0 : FVec F S4x8x2048x64 .f32) (main_arg1 : IVec S4x2048x2048 32) (main_arg2 : FVec F S129x64 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S129x64 .f32 := Host.absf main_arg2
  let main_cst_0 : FVec F S_ .f32 := constant S_ .f32 0x7F800000#32
  let main_v5 : FVec F S129x64 .f32 := broadcastInDim S129x64 ![] bcast_S_S129x64 main_cst_0
  let main_v6 : IVec S129x64 1 := cmpf .olt main_v4 main_v5
  let main_c_1 : IVec S_ 1 := constantI S_ 1 1#1
  let main_v7 : IVec S_ 1 := (fun x v => Host.reduce IntOp.andi x v reducesTo_S129x64_S_d0_1 h_S_) main_v6 main_c_1
  let main_v8 : IVec S_ 1 := andi main_v3 main_v7
  let main_c_2 : IVec S_ 32 := constantI S_ 32 0#32
  let main_v9 : IVec S4x2048x2048 32 := broadcastInDim S4x2048x2048 ![] bcast_S_S4x2048x2048 main_c_2
  let main_v10 : IVec S4x2048x2048 1 := cmpi .sge main_arg1 main_v9
  let main_c_3 : IVec S_ 1 := constantI S_ 1 1#1
  let main_v11 : IVec S_ 1 := (fun x v => Host.reduce IntOp.andi x v reducesTo_S4x2048x2048_S_d0_1_2 h_S_) main_v10 main_c_3
  let main_v12 : IVec S_ 1 := andi main_v8 main_v11
  main_v12
-- ==== Kernel.lean ====
abbrev S4x8x2048x64 : Shape := ⟨4, ![4, 8, 2048, 64]⟩
abbrev S4x2048x2048 : Shape := ⟨3, ![4, 2048, 2048]⟩
abbrev S129x64 : Shape := ⟨2, ![129, 64]⟩
abbrev S4x8x2048x2048 : Shape := ⟨4, ![4, 8, 2048, 2048]⟩
abbrev S1x8x64x64 : Shape := ⟨4, ![1, 8, 64, 64]⟩
abbrev S1x64x2048 : Shape := ⟨3, ![1, 64, 2048]⟩
abbrev S1x8x64x2048 : Shape := ⟨4, ![1, 8, 64, 2048]⟩
abbrev S8x64x64 : Shape := ⟨3, ![8, 64, 64]⟩
abbrev S512x64 : Shape := ⟨2, ![512, 64]⟩
abbrev S512x129 : Shape := ⟨2, ![512, 129]⟩
abbrev S8x64x129 : Shape := ⟨3, ![8, 64, 129]⟩
abbrev S64x2048 : Shape := ⟨2, ![64, 2048]⟩
abbrev S8x64x2048 : Shape := ⟨3, ![8, 64, 2048]⟩
abbrev S8x64x1 : Shape := ⟨3, ![8, 64, 1]⟩
abbrev S8x64 : Shape := ⟨2, ![8, 64]⟩

abbrev nBuf : Space → Nat
  | .hbm => 4
  | .vmem => 7
  | .smem => 0
  | _ => 0

abbrev bufTy : (tb : Table) → Fin (tcTables nBuf tb) → BufTy
  | .hbm, ⟨0, _⟩ => ⟨S4x8x2048x64, .f32⟩
  | .hbm, ⟨1, _⟩ => ⟨S4x2048x2048, .i32⟩
  | .hbm, ⟨2, _⟩ => ⟨S129x64, .f32⟩
  | .hbm, ⟨3, _⟩ => ⟨S4x8x2048x2048, .f32⟩
  | .local _ .vmem, ⟨0, _⟩ => ⟨S1x8x64x64, .f32⟩
  | .local _ .vmem, ⟨1, _⟩ => ⟨S1x8x64x64, .f32⟩
  | .local _ .vmem, ⟨2, _⟩ => ⟨S129x64, .f32⟩
  | .local _ .vmem, ⟨3, _⟩ => ⟨S1x64x2048, .i32⟩
  | .local _ .vmem, ⟨4, _⟩ => ⟨S1x64x2048, .i32⟩
  | .local _ .vmem, ⟨5, _⟩ => ⟨S1x8x64x2048, .f32⟩
  | .local _ .vmem, ⟨6, _⟩ => ⟨S1x8x64x2048, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S129x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x8x64x64_S1x8x64x64_0_0_0_0 : ∀ a, (![0, 0, 0, 0] : Fin 4 → Nat) a + S1x8x64x64.size a ≤ S1x8x64x64.size a
  h_S1x8x64x64 : 0 < S1x8x64x64.numel
  shapeCasts_S1x8x64x64_S8x64x64 : S1x8x64x64.ShapeCasts S8x64x64
  bitsLt_bf16_f32 : FTy.bits .bf16 < FTy.bits .f32
  shapeCasts_S8x64x64_S512x64 : S8x64x64.ShapeCasts S512x64
  inb_S129x64_S129x64_0_0 : ∀ a, (![0, 0] : Fin 2 → Nat) a + S129x64.size a ≤ S129x64.size a
  h_S129x64 : 0 < S129x64.numel
  shapeCasts_S512x129_S8x64x129 : S512x129.ShapeCasts S8x64x129
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  slices_S8x64x129_o0_0_0_S8x64x1 : S8x64x129.Slices ![0, 0, 0] S8x64x1
  shapeCasts_S8x64x1_S8x64 : S8x64x1.ShapeCasts S8x64
  natLt_1_32 : 1 < 32
  shapeCasts_S8x64_S8x64x1 : S8x64.ShapeCasts S8x64x1
  shapeCasts_S64x2048_S1x64x2048 : S64x2048.ShapeCasts S1x64x2048
  broadcasts_S8x64x1_S8x64x2048 : S8x64x1.Broadcasts S8x64x2048
  broadcasts_S1x64x2048_S8x64x2048 : S1x64x2048.Broadcasts S8x64x2048
  slices_S8x64x129_o0_0_1_S8x64x1 : S8x64x129.Slices ![0, 0, 1] S8x64x1
  slices_S8x64x129_o0_0_2_S8x64x1 : S8x64x129.Slices ![0, 0, 2] S8x64x1
  slices_S8x64x129_o0_0_3_S8x64x1 : S8x64x129.Slices ![0, 0, 3] S8x64x1
  slices_S8x64x129_o0_0_4_S8x64x1 : S8x64x129.Slices ![0, 0, 4] S8x64x1
  slices_S8x64x129_o0_0_5_S8x64x1 : S8x64x129.Slices ![0, 0, 5] S8x64x1
  slices_S8x64x129_o0_0_6_S8x64x1 : S8x64x129.Slices ![0, 0, 6] S8x64x1
  slices_S8x64x129_o0_0_7_S8x64x1 : S8x64x129.Slices ![0, 0, 7] S8x64x1
  slices_S8x64x129_o0_0_8_S8x64x1 : S8x64x129.Slices ![0, 0, 8] S8x64x1
  slices_S8x64x129_o0_0_9_S8x64x1 : S8x64x129.Slices ![0, 0, 9] S8x64x1
  slices_S8x64x129_o0_0_10_S8x64x1 : S8x64x129.Slices ![0, 0, 10] S8x64x1
  slices_S8x64x129_o0_0_11_S8x64x1 : S8x64x129.Slices ![0, 0, 11] S8x64x1
  slices_S8x64x129_o0_0_12_S8x64x1 : S8x64x129.Slices ![0, 0, 12] S8x64x1
  slices_S8x64x129_o0_0_13_S8x64x1 : S8x64x129.Slices ![0, 0, 13] S8x64x1
  slices_S8x64x129_o0_0_14_S8x64x1 : S8x64x129.Slices ![0, 0, 14] S8x64x1
  slices_S8x64x129_o0_0_15_S8x64x1 : S8x64x129.Slices ![0, 0, 15] S8x64x1
  slices_S8x64x129_o0_0_16_S8x64x1 : S8x64x129.Slices ![0, 0, 16] S8x64x1
  slices_S8x64x129_o0_0_17_S8x64x1 : S8x64x129.Slices ![0, 0, 17] S8x64x1
  slices_S8x64x129_o0_0_18_S8x64x1 : S8x64x129.Slices ![0, 0, 18] S8x64x1
  slices_S8x64x129_o0_0_19_S8x64x1 : S8x64x129.Slices ![0, 0, 19] S8x64x1
  slices_S8x64x129_o0_0_20_S8x64x1 : S8x64x129.Slices ![0, 0, 20] S8x64x1
  slices_S8x64x129_o0_0_21_S8x64x1 : S8x64x129.Slices ![0, 0, 21] S8x64x1
  slices_S8x64x129_o0_0_22_S8x64x1 : S8x64x129.Slices ![0, 0, 22] S8x64x1
  slices_S8x64x129_o0_0_23_S8x64x1 : S8x64x129.Slices ![0, 0, 23] S8x64x1
  slices_S8x64x129_o0_0_24_S8x64x1 : S8x64x129.Slices ![0, 0, 24] S8x64x1
  slices_S8x64x129_o0_0_25_S8x64x1 : S8x64x129.Slices ![0, 0, 25] S8x64x1
  slices_S8x64x129_o0_0_26_S8x64x1 : S8x64x129.Slices ![0, 0, 26] S8x64x1
  slices_S8x64x129_o0_0_27_S8x64x1 : S8x64x129.Slices ![0, 0, 27] S8x64x1
  slices_S8x64x129_o0_0_28_S8x64x1 : S8x64x129.Slices ![0, 0, 28] S8x64x1
  slices_S8x64x129_o0_0_29_S8x64x1 : S8x64x129.Slices ![0, 0, 29] S8x64x1
  slices_S8x64x129_o0_0_30_S8x64x1 : S8x64x129.Slices ![0, 0, 30] S8x64x1
  slices_S8x64x129_o0_0_31_S8x64x1 : S8x64x129.Slices ![0, 0, 31] S8x64x1
  slices_S8x64x129_o0_0_32_S8x64x1 : S8x64x129.Slices ![0, 0, 32] S8x64x1
  slices_S8x64x129_o0_0_33_S8x64x1 : S8x64x129.Slices ![0, 0, 33] S8x64x1
  slices_S8x64x129_o0_0_34_S8x64x1 : S8x64x129.Slices ![0, 0, 34] S8x64x1
  slices_S8x64x129_o0_0_35_S8x64x1 : S8x64x129.Slices ![0, 0, 35] S8x64x1
  slices_S8x64x129_o0_0_36_S8x64x1 : S8x64x129.Slices ![0, 0, 36] S8x64x1
  slices_S8x64x129_o0_0_37_S8x64x1 : S8x64x129.Slices ![0, 0, 37] S8x64x1
  slices_S8x64x129_o0_0_38_S8x64x1 : S8x64x129.Slices ![0, 0, 38] S8x64x1
  slices_S8x64x129_o0_0_39_S8x64x1 : S8x64x129.Slices ![0, 0, 39] S8x64x1
  slices_S8x64x129_o0_0_40_S8x64x1 : S8x64x129.Slices ![0, 0, 40] S8x64x1
  slices_S8x64x129_o0_0_41_S8x64x1 : S8x64x129.Slices ![0, 0, 41] S8x64x1
  slices_S8x64x129_o0_0_42_S8x64x1 : S8x64x129.Slices ![0, 0, 42] S8x64x1
  slices_S8x64x129_o0_0_43_S8x64x1 : S8x64x129.Slices ![0, 0, 43] S8x64x1
  slices_S8x64x129_o0_0_44_S8x64x1 : S8x64x129.Slices ![0, 0, 44] S8x64x1
  slices_S8x64x129_o0_0_45_S8x64x1 : S8x64x129.Slices ![0, 0, 45] S8x64x1
  slices_S8x64x129_o0_0_46_S8x64x1 : S8x64x129.Slices ![0, 0, 46] S8x64x1
  slices_S8x64x129_o0_0_47_S8x64x1 : S8x64x129.Slices ![0, 0, 47] S8x64x1
  slices_S8x64x129_o0_0_48_S8x64x1 : S8x64x129.Slices ![0, 0, 48] S8x64x1
  slices_S8x64x129_o0_0_49_S8x64x1 : S8x64x129.Slices ![0, 0, 49] S8x64x1
  slices_S8x64x129_o0_0_50_S8x64x1 : S8x64x129.Slices ![0, 0, 50] S8x64x1
  slices_S8x64x129_o0_0_51_S8x64x1 : S8x64x129.Slices ![0, 0, 51] S8x64x1
  slices_S8x64x129_o0_0_52_S8x64x1 : S8x64x129.Slices ![0, 0, 52] S8x64x1
  slices_S8x64x129_o0_0_53_S8x64x1 : S8x64x129.Slices ![0, 0, 53] S8x64x1
  slices_S8x64x129_o0_0_54_S8x64x1 : S8x64x129.Slices ![0, 0, 54] S8x64x1
  slices_S8x64x129_o0_0_55_S8x64x1 : S8x64x129.Slices ![0, 0, 55] S8x64x1
  slices_S8x64x129_o0_0_56_S8x64x1 : S8x64x129.Slices ![0, 0, 56] S8x64x1
  slices_S8x64x129_o0_0_57_S8x64x1 : S8x64x129.Slices ![0, 0, 57] S8x64x1
  slices_S8x64x129_o0_0_58_S8x64x1 : S8x64x129.Slices ![0, 0, 58] S8x64x1
  slices_S8x64x129_o0_0_59_S8x64x1 : S8x64x129.Slices ![0, 0, 59] S8x64x1
  slices_S8x64x129_o0_0_60_S8x64x1 : S8x64x129.Slices ![0, 0, 60] S8x64x1
  slices_S8x64x129_o0_0_61_S8x64x1 : S8x64x129.Slices ![0, 0, 61] S8x64x1
  slices_S8x64x129_o0_0_62_S8x64x1 : S8x64x129.Slices ![0, 0, 62] S8x64x1
  slices_S8x64x129_o0_0_63_S8x64x1 : S8x64x129.Slices ![0, 0, 63] S8x64x1
  slices_S8x64x129_o0_0_64_S8x64x1 : S8x64x129.Slices ![0, 0, 64] S8x64x1
  slices_S8x64x129_o0_0_65_S8x64x1 : S8x64x129.Slices ![0, 0, 65] S8x64x1
  slices_S8x64x129_o0_0_66_S8x64x1 : S8x64x129.Slices ![0, 0, 66] S8x64x1
  slices_S8x64x129_o0_0_67_S8x64x1 : S8x64x129.Slices ![0, 0, 67] S8x64x1
  slices_S8x64x129_o0_0_68_S8x64x1 : S8x64x129.Slices ![0, 0, 68] S8x64x1
  slices_S8x64x129_o0_0_69_S8x64x1 : S8x64x129.Slices ![0, 0, 69] S8x64x1
  slices_S8x64x129_o0_0_70_S8x64x1 : S8x64x129.Slices ![0, 0, 70] S8x64x1
  slices_S8x64x129_o0_0_71_S8x64x1 : S8x64x129.Slices ![0, 0, 71] S8x64x1
  slices_S8x64x129_o0_0_72_S8x64x1 : S8x64x129.Slices ![0, 0, 72] S8x64x1
  slices_S8x64x129_o0_0_73_S8x64x1 : S8x64x129.Slices ![0, 0, 73] S8x64x1
  slices_S8x64x129_o0_0_74_S8x64x1 : S8x64x129.Slices ![0, 0, 74] S8x64x1
  slices_S8x64x129_o0_0_75_S8x64x1 : S8x64x129.Slices ![0, 0, 75] S8x64x1
  slices_S8x64x129_o0_0_76_S8x64x1 : S8x64x129.Slices ![0, 0, 76] S8x64x1
  slices_S8x64x129_o0_0_77_S8x64x1 : S8x64x129.Slices ![0, 0, 77] S8x64x1
  slices_S8x64x129_o0_0_78_S8x64x1 : S8x64x129.Slices ![0, 0, 78] S8x64x1
  slices_S8x64x129_o0_0_79_S8x64x1 : S8x64x129.Slices ![0, 0, 79] S8x64x1
  slices_S8x64x129_o0_0_80_S8x64x1 : S8x64x129.Slices ![0, 0, 80] S8x64x1
  slices_S8x64x129_o0_0_81_S8x64x1 : S8x64x129.Slices ![0, 0, 81] S8x64x1
  slices_S8x64x129_o0_0_82_S8x64x1 : S8x64x129.Slices ![0, 0, 82] S8x64x1
  slices_S8x64x129_o0_0_83_S8x64x1 : S8x64x129.Slices ![0, 0, 83] S8x64x1
  slices_S8x64x129_o0_0_84_S8x64x1 : S8x64x129.Slices ![0, 0, 84] S8x64x1
  slices_S8x64x129_o0_0_85_S8x64x1 : S8x64x129.Slices ![0, 0, 85] S8x64x1
  slices_S8x64x129_o0_0_86_S8x64x1 : S8x64x129.Slices ![0, 0, 86] S8x64x1
  slices_S8x64x129_o0_0_87_S8x64x1 : S8x64x129.Slices ![0, 0, 87] S8x64x1
  slices_S8x64x129_o0_0_88_S8x64x1 : S8x64x129.Slices ![0, 0, 88] S8x64x1
  slices_S8x64x129_o0_0_89_S8x64x1 : S8x64x129.Slices ![0, 0, 89] S8x64x1
  slices_S8x64x129_o0_0_90_S8x64x1 : S8x64x129.Slices ![0, 0, 90] S8x64x1
  slices_S8x64x129_o0_0_91_S8x64x1 : S8x64x129.Slices ![0, 0, 91] S8x64x1
  slices_S8x64x129_o0_0_92_S8x64x1 : S8x64x129.Slices ![0, 0, 92] S8x64x1
  slices_S8x64x129_o0_0_93_S8x64x1 : S8x64x129.Slices ![0, 0, 93] S8x64x1
  slices_S8x64x129_o0_0_94_S8x64x1 : S8x64x129.Slices ![0, 0, 94] S8x64x1
  slices_S8x64x129_o0_0_95_S8x64x1 : S8x64x129.Slices ![0, 0, 95] S8x64x1
  slices_S8x64x129_o0_0_96_S8x64x1 : S8x64x129.Slices ![0, 0, 96] S8x64x1
  slices_S8x64x129_o0_0_97_S8x64x1 : S8x64x129.Slices ![0, 0, 97] S8x64x1
  slices_S8x64x129_o0_0_98_S8x64x1 : S8x64x129.Slices ![0, 0, 98] S8x64x1
  slices_S8x64x129_o0_0_99_S8x64x1 : S8x64x129.Slices ![0, 0, 99] S8x64x1
  slices_S8x64x129_o0_0_100_S8x64x1 : S8x64x129.Slices ![0, 0, 100] S8x64x1
  slices_S8x64x129_o0_0_101_S8x64x1 : S8x64x129.Slices ![0, 0, 101] S8x64x1
  slices_S8x64x129_o0_0_102_S8x64x1 : S8x64x129.Slices ![0, 0, 102] S8x64x1
  slices_S8x64x129_o0_0_103_S8x64x1 : S8x64x129.Slices ![0, 0, 103] S8x64x1
  slices_S8x64x129_o0_0_104_S8x64x1 : S8x64x129.Slices ![0, 0, 104] S8x64x1
  slices_S8x64x129_o0_0_105_S8x64x1 : S8x64x129.Slices ![0, 0, 105] S8x64x1
  slices_S8x64x129_o0_0_106_S8x64x1 : S8x64x129.Slices ![0, 0, 106] S8x64x1
  slices_S8x64x129_o0_0_107_S8x64x1 : S8x64x129.Slices ![0, 0, 107] S8x64x1
  slices_S8x64x129_o0_0_108_S8x64x1 : S8x64x129.Slices ![0, 0, 108] S8x64x1
  slices_S8x64x129_o0_0_109_S8x64x1 : S8x64x129.Slices ![0, 0, 109] S8x64x1
  slices_S8x64x129_o0_0_110_S8x64x1 : S8x64x129.Slices ![0, 0, 110] S8x64x1
  slices_S8x64x129_o0_0_111_S8x64x1 : S8x64x129.Slices ![0, 0, 111] S8x64x1
  slices_S8x64x129_o0_0_112_S8x64x1 : S8x64x129.Slices ![0, 0, 112] S8x64x1
  slices_S8x64x129_o0_0_113_S8x64x1 : S8x64x129.Slices ![0, 0, 113] S8x64x1
  slices_S8x64x129_o0_0_114_S8x64x1 : S8x64x129.Slices ![0, 0, 114] S8x64x1
  slices_S8x64x129_o0_0_115_S8x64x1 : S8x64x129.Slices ![0, 0, 115] S8x64x1
  slices_S8x64x129_o0_0_116_S8x64x1 : S8x64x129.Slices ![0, 0, 116] S8x64x1
  slices_S8x64x129_o0_0_117_S8x64x1 : S8x64x129.Slices ![0, 0, 117] S8x64x1
  slices_S8x64x129_o0_0_118_S8x64x1 : S8x64x129.Slices ![0, 0, 118] S8x64x1
  slices_S8x64x129_o0_0_119_S8x64x1 : S8x64x129.Slices ![0, 0, 119] S8x64x1
  slices_S8x64x129_o0_0_120_S8x64x1 : S8x64x129.Slices ![0, 0, 120] S8x64x1
  slices_S8x64x129_o0_0_121_S8x64x1 : S8x64x129.Slices ![0, 0, 121] S8x64x1
  slices_S8x64x129_o0_0_122_S8x64x1 : S8x64x129.Slices ![0, 0, 122] S8x64x1
  slices_S8x64x129_o0_0_123_S8x64x1 : S8x64x129.Slices ![0, 0, 123] S8x64x1
  slices_S8x64x129_o0_0_124_S8x64x1 : S8x64x129.Slices ![0, 0, 124] S8x64x1
  slices_S8x64x129_o0_0_125_S8x64x1 : S8x64x129.Slices ![0, 0, 125] S8x64x1
  slices_S8x64x129_o0_0_126_S8x64x1 : S8x64x129.Slices ![0, 0, 126] S8x64x1
  slices_S8x64x129_o0_0_127_S8x64x1 : S8x64x129.Slices ![0, 0, 127] S8x64x1
  slices_S8x64x129_o0_0_128_S8x64x1 : S8x64x129.Slices ![0, 0, 128] S8x64x1
  inb_S1x8x64x2048_S1x8x64x2048_0_0_0_0 : ∀ a, (![0, 0, 0, 0] : Fin 4 → Nat) a + S1x8x64x2048.size a ≤ S1x8x64x2048.size a
  h_S1x8x64x2048 : 0 < S1x8x64x2048.numel
  shapeCasts_S1x8x64x2048_S8x64x2048 : S1x8x64x2048.ShapeCasts S8x64x2048
  shapeCasts_S8x64x2048_S1x8x64x2048 : S8x64x2048.ShapeCasts S1x8x64x2048
  dot_S512x64_S129x64_S512x129_1_1_0_0_n_n_wf : DotDims.WF S512x64 S129x64 S512x129 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64x64.size a ≤ S4x8x2048x64.size a
  hwx0_0 : ∀ i : grid0.Coords, EltTy.bits .f32 = 32 ∨ (Rect.block (s := S4x8x2048x64) S1x8x64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S129x64.size a ≤ S129x64.size a
  hwx0_1 : ∀ i : grid0.Coords, EltTy.bits .f32 = 32 ∨ (Rect.block (s := S129x64) S129x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x2048.size a ≤ S4x2048x2048.size a
  hwx0_2 : ∀ i : grid0.Coords, EltTy.bits .i32 = 32 ∨ (Rect.block (s := S4x2048x2048) S1x64x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64x2048.size a ≤ S4x8x2048x2048.size a
  hwx0_3 : ∀ i : grid0.Coords, EltTy.bits .f32 = 32 ∨ (Rect.block (s := S4x8x2048x2048) S1x8x64x2048.size (cc0_transform_3 i) (hinb0_3 i)).WholeWords (EltTy.packing .f32)

variable [Facts₀]

def dot_S512x64_S129x64_S512x129_1_1_0_0_n_n : DotDims S512x64 S129x64 S512x129 where
  lhsContracting := [1]
  rhsContracting := [1]
  lhsNonContracting := [0]
  rhsNonContracting := [0]
  lhsBatch := []
  rhsBatch := []
  wf := dot_S512x64_S129x64_S512x129_1_1_0_0_n_n_wf

abbrev win0_0 : Pipeline.Window sig grid0 :=
  Pipeline.Window.ofSpec (Memref.whole main_arg0) S1x8x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S129x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S4x2048x2048 : Shape := ⟨3, ![4, 2048, 2048]⟩
abbrev S129x64 : Shape := ⟨2, ![129, 64]⟩
abbrev S4x8x2048x129 : Shape := ⟨4, ![4, 8, 2048, 129]⟩
abbrev S_ : Shape := ⟨0, ![]⟩
abbrev S4x1x2048x2048 : Shape := ⟨4, ![4, 1, 2048, 2048]⟩
abbrev S4x8x2048x2048 : Shape := ⟨4, ![4, 8, 2048, 2048]⟩
abbrev S4x8x2048x2048x1 : Shape := ⟨5, ![4, 8, 2048, 2048, 1]⟩
abbrev S1 : Shape := ⟨1, ![1]⟩
abbrev S1x1x1x1x1 : Shape := ⟨5, ![1, 1, 1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S4x2048x2048, .i32⟩
  | .hbm, ⟨2, _⟩ => ⟨S129x64, .f32⟩
  | .hbm, ⟨3, _⟩ => ⟨S4x8x2048x129, .f32⟩
  | .hbm, ⟨4, _⟩ => ⟨S_, .i32⟩
  | .hbm, ⟨5, _⟩ => ⟨S4x2048x2048, .i32⟩
  | .hbm, ⟨6, _⟩ => ⟨S4x2048x2048, .i32⟩
  | .hbm, ⟨7, _⟩ => ⟨S4x1x2048x2048, .i32⟩
  | .hbm, ⟨8, _⟩ => ⟨S4x8x2048x2048, .i32⟩
  | .hbm, ⟨9, _⟩ => ⟨S_, .i32⟩
  | .hbm, ⟨10, _⟩ => ⟨S4x8x2048x2048, .i32⟩
  | .hbm, ⟨11, _⟩ => ⟨S4x8x2048x2048, .i1⟩
  | .hbm, ⟨12, _⟩ => ⟨S_, .i32⟩
  | .hbm, ⟨13, _⟩ => ⟨S4x8x2048x2048, .i32⟩
  | .hbm, ⟨14, _⟩ => ⟨S4x8x2048x2048, .i32⟩
  | .hbm, ⟨15, _⟩ => ⟨S4x8x2048x2048, .i32⟩
  | .hbm, ⟨16, _⟩ => ⟨S4x8x2048x2048x1, .i32⟩
  | .hbm, ⟨17, _⟩ => ⟨S1, .i32⟩
  | .hbm, ⟨18, _⟩ => ⟨S_, .i32⟩
  | .hbm, ⟨19, _⟩ => ⟨S4x8x2048x2048x1, .i32⟩
  | .hbm, ⟨20, _⟩ => ⟨S4x8x2048x2048x1, .i1⟩
  | .hbm, ⟨21, _⟩ => ⟨S1x1x1x1x1, .i32⟩
  | .hbm, ⟨22, _⟩ => ⟨S4x8x2048x2048x1, .i32⟩
  | .hbm, ⟨23, _⟩ => ⟨S4x8x2048x2048x1, .i1⟩
  | .hbm, ⟨24, _⟩ => ⟨S4x8x2048x2048x1, .i1⟩
  | .hbm, ⟨25, _⟩ => ⟨S_, .i1⟩
  | .hbm, ⟨26, _⟩ => ⟨S4x8x2048x2048, .i1⟩
  | .hbm, ⟨27, _⟩ => ⟨S4x8x2048x2048, .f32⟩
  | .hbm, ⟨28, _⟩ => ⟨S_, .f32⟩
  | .hbm, ⟨29, _⟩ => ⟨S4x8x2048x2048, .f32⟩
  | .hbm, ⟨30, _⟩ => ⟨S4x8x2048x2048, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S4x2048x2048_S4x1x2048x2048_0_2_3 : S4x2048x2048.BroadcastsInDim S4x1x2048x2048 (![0, 2, 3] : Fin 3 → Fin S4x1x2048x2048.rank)
  bcast_S4x1x2048x2048_S4x8x2048x2048_0_1_2_3 : S4x1x2048x2048.BroadcastsInDim S4x8x2048x2048 (![0, 1, 2, 3] : Fin 4 → Fin S4x8x2048x2048.rank)
  bcast_S_S4x8x2048x2048 : S_.BroadcastsInDim S4x8x2048x2048 (![] : Fin 0 → Fin S4x8x2048x2048.rank)
  shapeCasts_S4x8x2048x2048_S4x8x2048x2048x1 : S4x8x2048x2048.ShapeCasts S4x8x2048x2048x1
  bcast_S_S4x8x2048x2048x1 : S_.BroadcastsInDim S4x8x2048x2048x1 (![] : Fin 0 → Fin S4x8x2048x2048x1.rank)
  bcast_S1_S1x1x1x1x1_4 : S1.BroadcastsInDim S1x1x1x1x1 (![4] : Fin 1 → Fin S1x1x1x1x1.rank)
  bcast_S1x1x1x1x1_S4x8x2048x2048x1_0_1_2_3_4 : S1x1x1x1x1.BroadcastsInDim S4x8x2048x2048x1 (![0, 1, 2, 3, 4] : Fin 5 → Fin S4x8x2048x2048x1.rank)
  reducesTo_S4x8x2048x2048x1_S4x8x2048x2048_d4 : S4x8x2048x2048x1.ReducesTo [4] S4x8x2048x2048
  h_S_ : 0 < S_.numel
  dot_S4x8x2048x64_S129x64_S4x8x2048x129_3_1_012_0_n_n_wf : DotDims.WF S4x8x2048x64 S129x64 S4x8x2048x129 [3] [1] [0, 1, 2] [0] [] []
  gather_S4x8x2048x129_S4x8x2048x2048x1_S4x8x2048x2048_n_3_012_012_3_4_1111_wf : GatherDims.WF S4x8x2048x129 S4x8x2048x2048x1 S4x8x2048x2048 [] [3] [0, 1, 2] [3] [0, 1, 2] 4 ![1, 1, 1, 1]

variable [Facts₀]

def dot_S4x8x2048x64_S129x64_S4x8x2048x129_3_1_012_0_n_n : DotDims S4x8x2048x64 S129x64 S4x8x2048x129 where
  lhsContracting := [3]
  rhsContracting := [1]
  lhsNonContracting := [0, 1, 2]
  rhsNonContracting := [0]
  lhsBatch := []
  rhsBatch := []
  wf := dot_S4x8x2048x64_S129x64_S4x8x2048x129_3_1_012_0_n_n_wf
def gather_S4x8x2048x129_S4x8x2048x2048x1_S4x8x2048x2048_n_3_012_012_3_4_1111 : GatherDims S4x8x2048x129 S4x8x2048x2048x1 S4x8x2048x2048 where
  offsetDims := []
  collapsedSliceDims := [3]
  operandBatchingDims := [0, 1, 2]
  startIndicesBatchingDims := [0, 1, 2]
  startIndexMap := [3]
  indexVectorDim := 4
  sliceSizes := ![1, 1, 1, 1]
  wf := gather_S4x8x2048x129_S4x8x2048x2048x1_S4x8x2048x2048_n_3_012_012_3_4_1111_wf

class Facts : Prop extends Facts₀ where

variable [Facts]
-- ==== Proof.Spec.lean ====
/-
  What both programs compute, stated once over the three argument arrays.

  A query `q : [4, 8, 2048, 64]`, a table `w : [129, 64]` and a matrix of integer distances `dist : [4, 2048, 2048]`.
  The SCORE of query row `(b, h, i)` against table row `p` is the inner product `∑ k, q[b, h, i, k] · w[p, k]`.
  The result at `(b, h, i, j)` is the score of row `(b, h, i)` against the table row whose number is the distance
  `dist[b, i, j]` clipped from above at 128, the last row of the table.

  The kernel reaches that value as a sum over all 129 table rows of score times the indicator "the clipped
  distance is this row" — exactly one indicator is one when the distance is non-negative —, the reference by
  indexing. The scalar facts both sides need are here: the indicator as the kernel computes it, the sum of a
  family against the indicators, and the clipped distance as a row number.
-/
import Idealize.ShloMosaic.PureOps.Ideal
import Idealize.ShloMosaic.Lib.ValueIdx
import Mathlib.Algebra.BigOperators.Group.Finset.Basic

noncomputable section

namespace Cert.RelPos

open Idealize.ShloMosaic Idealize.ShloMosaic.ValueIdx
open scoped BigOperators

/-- A distance, read as a signed word, clipped from above at 128: the number of a table row. (A negative word goes
    to row 0 here; under the precondition no distance is negative.) -/
def clipPos (z : BitVec 32) : Fin 129 := ⟨min z.toInt.toNat 128, by omega⟩

/-- The score of query row `(b, h, i)` against table row `p`: their inner product over the 64 features. -/
def score (q : FVec Ideal ⟨4, ![4, 8, 2048, 64]⟩ .f32) (w : FVec Ideal ⟨2, ![129, 64]⟩ .f32)
    (b : Fin 4) (h : Fin 8) (i : Fin 2048) (p : Fin 129) : EReal :=
  ∑ k : Fin 64, q (ix4 b h i k) * w (ix2 p k)

/-- THE RESULT: at `(b, h, i, j)` the score of query row `(b, h, i)` against the table row numbered by the clipped
    distance `dist[b, i, j]`. -/
def G (q : FVec Ideal ⟨4, ![4, 8, 2048, 64]⟩ .f32) (dist : IVec ⟨3, ![4, 2048, 2048]⟩ 32)
    (w : FVec Ideal ⟨2, ![129, 64]⟩ .f32) : FVec Ideal ⟨4, ![4, 8, 2048, 2048]⟩ .f32 :=
  fun y => score q w (y 0) (y 1) (y 2) (clipPos (dist (ix3 (y 0) (y 2) (y 3))))

/-- Every distance is non-negative as a signed word: what the precondition adds to finiteness. -/
def NonNeg (dist : IVec ⟨3, ![4, 2048, 2048]⟩ 32) : Prop := ∀ i, 0 ≤ (dist i).toInt

/-! ## The clipped distance -/

/-- The signed minimum with 128 of a non-negative word is the clipped row number, as a natural number. -/
theorem minsi_toNat {z : BitVec 32} (hz : 0 ≤ z.toInt) : (IntOp.minsi z 128#32).toNat = (clipPos z).val := by
  have h128 : (128#32 : BitVec 32).toInt = 128 := by decide
  have hzt : z.toInt = (z.toNat : ℤ) := by
    rw [BitVec.toInt_eq_toNat_cond] at hz ⊢
    split at hz <;> rename_i h
    · rw [if_pos h]
    · exfalso; have := z.isLt; omega
  show (if z.slt 128#32 then z else 128#32).toNat = min z.toInt.toNat 128
  by_cases h : z.slt 128#32
  · rw [if_pos h]
    have : z.toInt < 128 := by rw [← h128]; exact BitVec.slt_iff_toInt_lt.mp h
    omega
  · rw [if_neg h]
    have : ¬ z.toInt < 128 := by rw [← h128]; exact fun hh => h (BitVec.slt_iff_toInt_lt.mpr hh)
    show 128 = _
    omega

/-- The clipped word is a small number: below 129. -/
theorem minsi_toNat_lt {z : BitVec 32} (hz : 0 ≤ z.toInt) : (IntOp.minsi z 128#32).toNat < 129 := by
  rw [minsi_toNat hz]; exact (clipPos z).isLt

/-! ## The indicator, and a sum against indicators -/

/-- "Word `z` is `p`" as the kernel computes it: the comparison's bit widened to a word and converted to a float. -/
def ind (z p : BitVec 32) : EReal := FloatOps.sitofp (F := Ideal) .f32 ((IntOp.cmpi .eq z p).setWidth 32)

theorem ind_eq (z p : BitVec 32) : ind z p = if z = p then 1 else 0 := by
  unfold ind IntOp.cmpi
  show (((((BitVec.ofBool (z == p)).setWidth 32).toInt : ℝ)) : EReal) = _
  by_cases h : z = p
  · subst h
    rw [if_pos rfl, beq_self_eq_true]
    have h1 : ((BitVec.ofBool true).setWidth 32).toInt = 1 := by decide
    rw [h1]; norm_num
  · rw [if_neg h, beq_false_of_ne h]
    norm_num [BitVec.ofBool]

/-- A family summed against the indicators of the 129 candidate words is the family at the word itself, when the
    word is one of the candidates: every other term is a product with zero. -/
theorem sum_ind (f : ℕ → EReal) (z : BitVec 32) (hz : z.toNat < 129) :
    ∑ p ∈ Finset.range 129, f p * ind z (BitVec.ofNat 32 p) = f z.toNat := by
  rw [Finset.sum_eq_single z.toNat]
  · rw [ind_eq, if_pos (by simp), mul_one]
  · intro p hp hne
    have hp' : p < 129 := Finset.mem_range.mp hp
    rw [ind_eq, if_neg, mul_zero]
    intro h
    apply hne
    have := congrArg BitVec.toNat h
    rw [BitVec.toNat_ofNat, Nat.mod_eq_of_lt (by omega)] at this
    exact this.symm
  · intro h
    exact absurd (Finset.mem_range.mpr hz) h

end Cert.RelPos

end
-- ==== Proof.Pre.lean ====
/-
  What the precondition says of the distances.

  The precondition is the conjunction of three `all`-reductions: every query entry finite, every table entry
  finite, every distance at least zero as a signed word. Each reduction is a fold by `and` from 1, so a result of 1
  means every compared element gave 1; the third conjunct, read at an index, is the signed comparison `0 ≤ d`.
  (The two finiteness conjuncts are not needed by the value claim: a sum of products with the indicators is the
  selected product whatever the other scores are, since any extended real times zero is zero.)
-/
import proofs.«425823_j1580547967908_1_alg».proof.Pre_finite_inputs
import proofs.«425823_j1580547967908_1_alg».proof.Proof.Spec
import Idealize.ShloMosaic.Lib.ReduceAll

noncomputable section

namespace Cert.RelPos.Pre

open Idealize.ShloMosaic Cert.RelPos

variable [Cert.Pre_finite_inputs.Facts]
open Cert.Pre_finite_inputs Cert.Pre_finite_inputs.Facts

instance : Subsingleton S_.Idx := ⟨fun a b => funext fun d => d.elim0⟩

/-- Under the precondition every distance is non-negative as a signed word. -/
theorem nonneg_of_pre (x0 : FVec Ideal S4x8x2048x64 .f32) (x1 : IVec S4x2048x2048 32) (x2 : FVec Ideal S129x64 .f32)
    (h : Cert.Pre_finite_inputs.fn (F := Ideal) x0 x1 x2 = fun _ => 1#1) : NonNeg x1 := by
  intro i
  have h0 := congrFun h ValueIdx.ix0
  dsimp only [Cert.Pre_finite_inputs.fn] at h0
  obtain ⟨_, h11⟩ := IntOp.andi_eq_one.1 h0
  have hi := Host.reduce_andi_all _ _ _ _ _ h11 i
  have hs : (0#32 : BitVec 32).sle (x1 i) = true := by
    change BitVec.ofBool ((0#32 : BitVec 32).sle (x1 i)) = 1#1 at hi
    cases hb : (0#32 : BitVec 32).sle (x1 i) with
    | true => rfl
    | false => rw [hb] at hi; exact absurd hi (by decide)
  have hle := BitVec.sle_iff_toInt_le.mp hs
  have h00 : (0#32 : BitVec 32).toInt = 0 := by decide
  rw [h00] at hle
  exact hle

end Cert.RelPos.Pre

end
-- ==== Proof.Layout.lean ====
/-
  The kernel's layout operations read at an index, at the shapes this kernel uses them: a column `[8, 64, 1]` and
  a plane `[1, 64, 2048]` broadcast over a block `[8, 64, 2048]`, the unit axis of a column added and dropped, and
  one column cut out of the score table `[8, 64, 129]`. Each is one coordinate computation.
-/
import Idealize.ShloMosaic.PureOps.Ideal
import Idealize.ShloMosaic.Lib.ValueIdx
import Idealize.ShloMosaic.Lib.ValueLayout
import Idealize.ShloMosaic.Lib.Pipeline.Value

noncomputable section

namespace Cert.RelPos

open Idealize.ShloMosaic Idealize.ShloMosaic.ValueIdx

variable {α : Type}

/-- A column `[8, 64, 1]` broadcast along the last axis: every `(a, b, c)` reads the column at `(a, b)`. -/
theorem bcast_col (v : (⟨3, ![8, 64, 1]⟩ : Shape).Idx → α)
    (h : (⟨3, ![8, 64, 1]⟩ : Shape).Broadcasts ⟨3, ![8, 64, 2048]⟩) (a : Fin 8) (b : Fin 64) (c : Fin 2048) :
    broadcastTo ⟨3, ![8, 64, 2048]⟩ v h (ix3 a b c) = v (ix3 a b (0 : Fin 1)) :=
  broadcastTo_apply v h _ _ (fun ax => by
    match ax with
    | ⟨0, _⟩ => show a.val = if (8 : ℕ) = 1 then 0 else a.val; rw [if_neg (by decide)]
    | ⟨1, _⟩ => show b.val = if (64 : ℕ) = 1 then 0 else b.val; rw [if_neg (by decide)]
    | ⟨2, _⟩ => show (0 : ℕ) = if (1 : ℕ) = 1 then 0 else c.val; rw [if_pos rfl])

/-- A plane `[1, 64, 2048]` broadcast along the first axis: every `(a, b, c)` reads the plane at `(b, c)`. -/
theorem bcast_plane (v : (⟨3, ![1, 64, 2048]⟩ : Shape).Idx → α)
    (h : (⟨3, ![1, 64, 2048]⟩ : Shape).Broadcasts ⟨3, ![8, 64, 2048]⟩) (a : Fin 8) (b : Fin 64) (c : Fin 2048) :
    broadcastTo ⟨3, ![8, 64, 2048]⟩ v h (ix3 a b c) = v (ix3 (0 : Fin 1) b c) :=
  broadcastTo_apply v h _ _ (fun ax => by
    match ax with
    | ⟨0, _⟩ => show (0 : ℕ) = if (1 : ℕ) = 1 then 0 else a.val; rw [if_pos rfl]
    | ⟨1, _⟩ => show b.val = if (64 : ℕ) = 1 then 0 else b.val; rw [if_neg (by decide)]
    | ⟨2, _⟩ => show c.val = if (2048 : ℕ) = 1 then 0 else c.val; rw [if_neg (by decide)])

/-- A matrix `[8, 64]` given a trailing unit axis. -/
theorem cast_addLast (v : (⟨2, ![8, 64]⟩ : Shape).Idx → α)
    (h : (⟨2, ![8, 64]⟩ : Shape).ShapeCasts ⟨3, ![8, 64, 1]⟩) (a : Fin 8) (b : Fin 64) (u : Fin 1) :
    shapeCast ⟨3, ![8, 64, 1]⟩ v h (ix3 a b u) = v (ix2 a b) :=
  shapeCast_apply v h _ _ (by
    have hu : u.val = 0 := by omega
    rw [Shape.rowMajor_val_three, Shape.rowMajor_val_two]
    show a.val * 64 + b.val = (a.val * 64 + b.val) * 1 + u.val
    omega)

/-- A column `[8, 64, 1]` with its trailing unit axis dropped. -/
theorem cast_dropLast (v : (⟨3, ![8, 64, 1]⟩ : Shape).Idx → α)
    (h : (⟨3, ![8, 64, 1]⟩ : Shape).ShapeCasts ⟨2, ![8, 64]⟩) (a : Fin 8) (b : Fin 64) :
    shapeCast ⟨2, ![8, 64]⟩ v h (ix2 a b) = v (ix3 a b (0 : Fin 1)) :=
  shapeCast_apply v h _ _ (by
    rw [Shape.rowMajor_val_three, Shape.rowMajor_val_two]
    show (a.val * 64 + b.val) * 1 + 0 = a.val * 64 + b.val
    omega)

/-- Column `p` of a score table `[8, 64, 129]` at row `(a, b)`, as a function of a natural number `p` (zero past the
    table's last column, which no slice of the kernel reaches). -/
def col (T : (⟨3, ![8, 64, 129]⟩ : Shape).Idx → EReal) (a : Fin 8) (b : Fin 64) (p : ℕ) : EReal :=
  if h : p < 129 then T (ix3 a b ⟨p, h⟩) else 0

theorem col_of_lt (T : (⟨3, ![8, 64, 129]⟩ : Shape).Idx → EReal) (a : Fin 8) (b : Fin 64) (p : Fin 129) :
    col T a b p.val = T (ix3 a b p) := by
  unfold col; rw [dif_pos p.isLt]

/-- The slice of width one at column offset `p` of the score table is its column `p`. -/
theorem slice_col (p : ℕ) (T : (⟨3, ![8, 64, 129]⟩ : Shape).Idx → EReal)
    (h : (⟨3, ![8, 64, 129]⟩ : Shape).Slices ![0, 0, p] ⟨3, ![8, 64, 1]⟩) (a : Fin 8) (b : Fin 64) (u : Fin 1) :
    extractStridedSlice ⟨3, ![8, 64, 1]⟩ ![0, 0, p] T h (ix3 a b u) = col T a b p := by
  have hp : p < 129 := by
    have := h.2 ⟨2, by decide⟩
    have h1 : p + 1 ≤ 129 := this
    omega
  have hu : u.val = 0 := by omega
  unfold col
  rw [dif_pos hp]
  exact extractStridedSlice_apply _ _ _ _ _ (fun ax => by
    match ax with
    | ⟨0, _⟩ => exact (Nat.zero_add _).symm
    | ⟨1, _⟩ => exact (Nat.zero_add _).symm
    | ⟨2, _⟩ => show p = p + u.val; omega)

end Cert.RelPos

end
-- ==== Proof.KernelValue.lean ====
/-
  The kernel's body as a value: what one grid point leaves in its output block, index by index.

  The body projects the point's query block `[8, 64, 64]` (eight heads, a tile of 64 rows) onto all 129 table rows
  — one matrix product: the score table `T[h, r, p] = ∑ k, q[h, r, k] · w[p, k]`; the narrowing of both operands to
  sixteen bits before the product is the identity on extended reals —, clips the tile's distances at 128, and then,
  for every candidate row number `p` from 0 to 128 in turn, adds `T[h, r, p]` times the indicator "the clipped
  distance at `(r, c)` is `p`" to an accumulator that starts at zero. So the block entry at `(h, r, c)` is the sum
  over `p` of `T[h, r, p] · [clip d(r, c) = p]`. When `d(r, c)` is non-negative its clip is one of the candidates,
  every other term is a product with zero, and the sum is `T[h, r, clip d(r, c)]`: the score against the table row the
  clipped distance names.
-/
import proofs.«425823_j1580547967908_1_alg».proof.Proof.Gen.KernelIdeal.Frame
import proofs.«425823_j1580547967908_1_alg».proof.Proof.Spec
import proofs.«425823_j1580547967908_1_alg».proof.Proof.Layout
import Idealize.ShloMosaic.PureOps.Ideal.Laws

set_option maxRecDepth 65536

noncomputable section

namespace Cert.RelPos.KernelValue

open Cert.KernelIdeal Cert.KernelIdeal.Gen Idealize.ShloMosaic Idealize.ShloMosaic.ValueIdx Cert.RelPos
open scoped BigOperators

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl

theorem cmpi_apply {s : Shape} {w : Nat} (p : CmpIPredicate) (x y : IVec s w) (i : s.Idx) :
    cmpi p x y i = IntOp.cmpi p (x i) (y i) := rfl

/-- The widened, converted comparison bit is the indicator of Spec. -/
theorem ind_fold (z p : BitVec 32) : FloatOps.sitofp (F := Ideal) .f32 ((IntOp.cmpi .eq z p).setWidth 32) = ind z p := rfl

/-- The accumulator's initial word is the real number zero. -/
theorem zero_word : Scalar.ofBits (F := Ideal) .f32 0x00000000#32 = (0 : EReal) := Ideal.ofBits_zero_f32

/-! ## The accumulation: 129 indicator-weighted columns of the score table -/

/-- The stored block at `(h, r, c)`, with the score table and the clipped distances kept as names: the sum over the
    candidate row numbers `p < 129` of the table's column `p` at `(h, r)` times the indicator that the clipped
    distance at `(r, c)` is `p`. Every step of the body is pointwise in the accumulator, so reading the whole chain
    at one index leaves the 129 terms, added in the order the body adds them. -/
theorem stored_apply (x0 : Vec Ideal S1x8x64x64 .f32) (x1 : Vec Ideal S129x64 .f32) (x2 : Vec Ideal S1x64x2048 .i32)
    (a : Fin 8) (b : Fin 64) (c : Fin 2048) :
    out0_3 x0 x1 x2 (ix4 (0 : Fin 1) a b c)
      = ∑ p ∈ Finset.range 129, col (k0_pay1 x0 x1) a b p * ind (k0_pay2 x2 (ix2 b c)) (BitVec.ofNat 32 p) := by
  unfold out0_3
  rw [View.canon_unit_zero zeros4]
  simp only [View.ld_unit_zero (S := S1x8x64x64) zeros4, View.ld_unit_zero (S := S129x64) zeros2,
    View.ld_unit_zero (S := S1x64x2048) zeros3]
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
  generalize k0_pay1 x0 x1 = T
  generalize k0_pay2 x2 = P
  simp only [shapeCast_abc_1abc_apply, shapeCast_ab_1ab_apply, addf_apply, mulf_apply, bcast_col, bcast_plane, cast_addLast,
    cast_dropLast, slice_col, sitofp_apply, extui_apply, cmpi_apply, broadcast_apply, ind_fold, zero_word]
  simp only [Finset.sum_range_succ, Finset.sum_range_zero]

/-! ## The score table and the clipped distances, at an index -/

theorem lhs_score_0 (i : S512x129.Idx) (q : dot_S512x64_S129x64_S512x129_1_1_0_0_n_n.contr.Idx) :
    (dot_S512x64_S129x64_S512x129_1_1_0_0_n_n.lhsIdx i q 0).val = (i 0).val := by
  unfold DotDims.lhsIdx
  rw [dif_neg (show ¬(0 : Fin S512x64.rank) ∈ dot_S512x64_S129x64_S512x129_1_1_0_0_n_n.lhsBatch by decide), dif_pos (show (0 : Fin S512x64.rank) ∈ dot_S512x64_S129x64_S512x129_1_1_0_0_n_n.lhsNonContracting by decide)]
  rfl
theorem lhs_score_1 (i : S512x129.Idx) (q : dot_S512x64_S129x64_S512x129_1_1_0_0_n_n.contr.Idx) :
    (dot_S512x64_S129x64_S512x129_1_1_0_0_n_n.lhsIdx i q 1).val = (q ⟨0, by decide⟩).val :=
  dot_S512x64_S129x64_S512x129_1_1_0_0_n_n.lhsIdx_val_of_single rfl i q
theorem rhs_score_0 (i : S512x129.Idx) (q : dot_S512x64_S129x64_S512x129_1_1_0_0_n_n.contr.Idx) :
    (dot_S512x64_S129x64_S512x129_1_1_0_0_n_n.rhsIdx i q 0).val = (i 1).val := by
  unfold DotDims.rhsIdx
  rw [dif_neg (show ¬(0 : Fin S129x64.rank) ∈ dot_S512x64_S129x64_S512x129_1_1_0_0_n_n.rhsBatch by decide), dif_pos (show (0 : Fin S129x64.rank) ∈ dot_S512x64_S129x64_S512x129_1_1_0_0_n_n.rhsNonContracting by decide)]
  rfl
theorem rhs_score_1 (i : S512x129.Idx) (q : dot_S512x64_S129x64_S512x129_1_1_0_0_n_n.contr.Idx) :
    (dot_S512x64_S129x64_S512x129_1_1_0_0_n_n.rhsIdx i q 1).val = (q ⟨0, by decide⟩).val :=
  dot_S512x64_S129x64_S512x129_1_1_0_0_n_n.rhsIdx_val_of_single rfl i q

/-- Row `h · 64 + r` of the flattened query block is row `(h, r)` of the block. -/
theorem flat_row (a : Fin 8) (b : Fin 64) : a.val * 64 + b.val < 512 := by omega

/-- THE SCORE TABLE at `(h, r, p)`: the inner product of query row `(h, r)` of the block with table row `p`. -/
theorem table_apply (x0 : Vec Ideal S1x8x64x64 .f32) (x1 : Vec Ideal S129x64 .f32) (a : Fin 8) (b : Fin 64) (p : Fin 129) :
    k0_pay1 x0 x1 (ix3 a b p) = ∑ k : Fin 64, x0 (ix4 (0 : Fin 1) a b k) * x1 (ix2 p k) := by
  unfold k0_pay1
  show shapeCast S8x64x129 _ shapeCasts_S512x129_S8x64x129 (ix3 a b p) = _
  rw [shapeCast_apply _ shapeCasts_S512x129_S8x64x129 (ix3 a b p) (ix2 (⟨a.val * 64 + b.val, flat_row a b⟩ : Fin 512) p) (by
    rw [Shape.rowMajor_val_two, Shape.rowMajor_val_three]; rfl)]
  simp only [matmul]
  rw [Ideal.matmul_constant_zero_apply, ← Equiv.sum_comp (ValueIdx.contrEquiv1 dot_S512x64_S129x64_S512x129_1_1_0_0_n_n 64 rfl rfl).symm]
  refine Finset.sum_congr rfl fun k _ => ?_
  have hk := ValueIdx.contrEquiv1_symm_val dot_S512x64_S129x64_S512x129_1_1_0_0_n_n 64 rfl rfl k
  have el : dot_S512x64_S129x64_S512x129_1_1_0_0_n_n.lhsIdx (ix2 (⟨a.val * 64 + b.val, flat_row a b⟩ : Fin 512) p) ((ValueIdx.contrEquiv1 dot_S512x64_S129x64_S512x129_1_1_0_0_n_n 64 rfl rfl).symm k)
      = ix2 (⟨a.val * 64 + b.val, flat_row a b⟩ : Fin 512) k := funext fun ax => Fin.ext (by
    match ax with
    | ⟨0, _⟩ => exact lhs_score_0 _ _
    | ⟨1, _⟩ => exact (lhs_score_1 _ _).trans hk)
  have er : dot_S512x64_S129x64_S512x129_1_1_0_0_n_n.rhsIdx (ix2 (⟨a.val * 64 + b.val, flat_row a b⟩ : Fin 512) p) ((ValueIdx.contrEquiv1 dot_S512x64_S129x64_S512x129_1_1_0_0_n_n 64 rfl rfl).symm k)
      = ix2 p k := funext fun ax => Fin.ext (by
    match ax with
    | ⟨0, _⟩ => exact rhs_score_0 _ _
    | ⟨1, _⟩ => exact (rhs_score_1 _ _).trans hk)
  rw [el, er]
  -- the two reshapes of the query block are coordinate changes; the narrowing to sixteen bits is the identity
  rw [shapeCast_apply _ shapeCasts_S8x64x64_S512x64 (ix2 (⟨a.val * 64 + b.val, flat_row a b⟩ : Fin 512) k) (ix3 a b k) (by
    rw [Shape.rowMajor_val_two, Shape.rowMajor_val_three]; rfl)]
  simp only [truncf_apply, shapeCast_1abc_abc_apply]

/-- THE CLIPPED DISTANCES at `(r, c)`: the signed minimum of the tile's distance there with 128. -/
theorem clipped_apply (x2 : Vec Ideal S1x64x2048 .i32) (b : Fin 64) (c : Fin 2048) :
    k0_pay2 x2 (ix2 b c) = IntOp.minsi (x2 (ix3 (0 : Fin 1) b c)) 128#32 := by
  unfold k0_pay2
  show IntOp.minsi (shapeCast S64x2048 x2 shapeCasts_S1x64x2048_S64x2048 (ix2 b c)) 128#32 = _
  rw [shapeCast_1ab_ab_apply]

/-! ## The block -/

/-- WHAT A GRID POINT STORES at `(h, r, c)` of its block, when the tile's distance there is non-negative: the score of
    query row `(h, r)` against the table row the clipped distance names. -/
theorem stored_eq (x0 : Vec Ideal S1x8x64x64 .f32) (x1 : Vec Ideal S129x64 .f32) (x2 : Vec Ideal S1x64x2048 .i32)
    (a : Fin 8) (b : Fin 64) (c : Fin 2048) (hd : 0 ≤ (x2 (ix3 (0 : Fin 1) b c)).toInt) :
    out0_3 x0 x1 x2 (ix4 (0 : Fin 1) a b c)
      = ∑ k : Fin 64, x0 (ix4 (0 : Fin 1) a b k) * x1 (ix2 (clipPos (x2 (ix3 (0 : Fin 1) b c))) k) := by
  rw [stored_apply, clipped_apply, sum_ind (col (k0_pay1 x0 x1) a b) _ (minsi_toNat_lt hd), minsi_toNat hd, col_of_lt,
    table_apply]

end Cert.RelPos.KernelValue

end
-- ==== Proof.KernelArray.lean ====
/-
  From blocks to the array: what the kernel's result array holds after the run.

  The grid has 4 × 32 points; point `(n, s)` works on batch `n` and on the tile of 64 rows starting at row `64 · s`.
  Its query block is rows `64 s … 64 s + 63` of all eight heads of batch `n`, its distance block the same rows of
  batch `n`'s distance matrix (all 2048 columns), the table is fetched whole, and the output block is those rows of
  all eight heads of batch `n` of the result, all 2048 columns. So entry `(h, r, c)` of the block the point writes
  back is entry `(n, h, 64 s + r, c)` of the result, and it is the score of query row `(n, h, 64 s + r)` against the
  table row named by the clipped distance `dist[n, 64 s + r, c]`: the specification's function at that index. The
  128 output blocks tile the result array, so the array ends holding the specification's function everywhere.
-/
import proofs.«425823_j1580547967908_1_alg».proof.Proof.Gen.KernelIdeal.Value
import proofs.«425823_j1580547967908_1_alg».proof.Proof.KernelValue

set_option maxRecDepth 16384

noncomputable section

namespace Cert.RelPos.KernelArray

open Cert.KernelIdeal Cert.KernelIdeal.Gen Idealize.ShloMosaic Idealize.ShloMosaic.TcCoe Idealize.SL.Sem
open Idealize.ShloMosaic.ValueIdx Cert.RelPos
open Idealize.ShloMosaic.Pipeline (Dat)
open scoped BigOperators

variable (m : (ℓ : Loc nD τ sig) → Buf (Elt Ideal) ℓ) (ρ : Dev nD → PrngReg)

/-- The printed index maps over the 128 grid points: the query and distance blocks move with the output block
    (batch on axis 0, row tile on the row axis), the table's block is the whole table, and the output's batch and
    tile numbers stay in range. -/
theorem idx_facts : ∀ t : Fin cfg0.N,
    win0_0.index t (0 : Fin 4) = win0_3.index t (0 : Fin 4) ∧ win0_0.index t (1 : Fin 4) = 0
    ∧ win0_0.index t (2 : Fin 4) = win0_3.index t (2 : Fin 4) ∧ win0_0.index t (3 : Fin 4) = 0
    ∧ win0_1.index t (0 : Fin 2) = 0 ∧ win0_1.index t (1 : Fin 2) = 0
    ∧ win0_2.index t (0 : Fin 3) = win0_3.index t (0 : Fin 4) ∧ win0_2.index t (1 : Fin 3) = win0_3.index t (2 : Fin 4)
    ∧ win0_2.index t (2 : Fin 3) = 0
    ∧ win0_3.index t (1 : Fin 4) = 0 ∧ win0_3.index t (3 : Fin 4) = 0
    ∧ win0_3.index t (0 : Fin 4) < 4 ∧ win0_3.index t (2 : Fin 4) < 32 :=
  (by decide +kernel : ∀ t : Fin grid0.N, _)

/-- Every (batch, row tile) pair is some grid point's. -/
theorem idx_onto : ∀ (n : Fin 4) (s : Fin 32), ∃ t : Fin cfg0.N, win0_3.index t = ![n.val, 0, s.val, 0] :=
  (by decide +kernel : ∀ (n : Fin 4) (s : Fin 32), ∃ t : Fin grid0.N, win0_3.index t = ![n.val, 0, s.val, 0])

/-- WHAT POINT `t` WRITES BACK is block `t` of the specification's function of the argument arrays. -/
theorem flushed_eq (c : Dev nD) (hd : NonNeg (V m c main_arg1)) (t : Fin cfg0.N) :
    (dats m 0 c).flushed 3 t
      = ((cfg0.win 3).blk t).view.read (Elt Ideal) (G (V m c main_arg0) (V m c main_arg1) (V m c main_arg2)) := by
  rw [Cert.KernelIdeal.Value.flushed3]
  obtain ⟨e00, e01, e02, e03, e10, e11, e20, e21, e22, e31, e33, l0, l2⟩ := idx_facts t
  have key : ∀ j : S1x8x64x2048.Idx,
      out0_3 (iblk m c 0 t) (iblk m c 1 t) (iblk m c 2 t) j
        = G (V m c main_arg0) (V m c main_arg1) (V m c main_arg2) (((cfg0.win 3).blk t).view.emb j) := by
    intro j
    obtain ⟨u, a, b, c', rfl⟩ : ∃ (u : Fin 1) (a : Fin 8) (b : Fin 64) (c' : Fin 2048), j = ix4 u a b c' :=
      ⟨j 0, j 1, j 2, j 3, eq_ix4 j⟩
    obtain rfl : u = 0 := Subsingleton.elim _ _
    have hb : b.val < 64 := b.isLt
    -- the batch and the array row this block entry belongs to
    let n : Fin 4 := ⟨win0_3.index t (0 : Fin 4), l0⟩
    let r : Fin 2048 := ⟨win0_3.index t (2 : Fin 4) * 64 + b.val, by omega⟩
    have emb3 : ((cfg0.win 3).blk t).view.emb (ix4 (0 : Fin 1) a b c') = ix4 n a r c' := by
      funext ax; apply Fin.ext
      match ax with
      | ⟨0, _⟩ => show win0_3.index t (0 : Fin 4) * 1 + 1 * 0 = win0_3.index t (0 : Fin 4); omega
      | ⟨1, _⟩ => show win0_3.index t (1 : Fin 4) * 8 + 1 * a.val = a.val; omega
      | ⟨2, _⟩ => show win0_3.index t (2 : Fin 4) * 64 + 1 * b.val = win0_3.index t (2 : Fin 4) * 64 + b.val; omega
      | ⟨3, _⟩ => show win0_3.index t (3 : Fin 4) * 2048 + 1 * c'.val = c'.val; omega
    have emb0 : ∀ k : Fin 64, ((cfg0.win 0).blk t).view.emb (ix4 (0 : Fin 1) a b k) = ix4 n a r k := by
      intro k
      funext ax; apply Fin.ext
      match ax with
      | ⟨0, _⟩ => show win0_0.index t (0 : Fin 4) * 1 + 1 * 0 = win0_3.index t (0 : Fin 4); omega
      | ⟨1, _⟩ => show win0_0.index t (1 : Fin 4) * 8 + 1 * a.val = a.val; omega
      | ⟨2, _⟩ => show win0_0.index t (2 : Fin 4) * 64 + 1 * b.val = win0_3.index t (2 : Fin 4) * 64 + b.val; omega
      | ⟨3, _⟩ => show win0_0.index t (3 : Fin 4) * 64 + 1 * k.val = k.val; omega
    have emb1 : ∀ (p : Fin 129) (k : Fin 64), ((cfg0.win 1).blk t).view.emb (ix2 p k) = ix2 p k := by
      intro p k
      funext ax; apply Fin.ext
      match ax with
      | ⟨0, _⟩ => show win0_1.index t (0 : Fin 2) * 129 + 1 * p.val = p.val; omega
      | ⟨1, _⟩ => show win0_1.index t (1 : Fin 2) * 64 + 1 * k.val = k.val; omega
    have emb2 : ((cfg0.win 2).blk t).view.emb (ix3 (0 : Fin 1) b c') = ix3 n r c' := by
      funext ax; apply Fin.ext
      match ax with
      | ⟨0, _⟩ => show win0_2.index t (0 : Fin 3) * 1 + 1 * 0 = win0_3.index t (0 : Fin 4); omega
      | ⟨1, _⟩ => show win0_2.index t (1 : Fin 3) * 64 + 1 * b.val = win0_3.index t (2 : Fin 4) * 64 + b.val; omega
      | ⟨2, _⟩ => show win0_2.index t (2 : Fin 3) * 2048 + 1 * c'.val = c'.val; omega
    have hq : ∀ k : Fin 64, iblk m c 0 t (ix4 (0 : Fin 1) a b k) = V m c main_arg0 (ix4 n a r k) := fun k => by
      show V m c main_arg0 (((cfg0.win 0).blk t).view.emb (ix4 (0 : Fin 1) a b k)) = _
      rw [emb0]
    have hw : ∀ (p : Fin 129) (k : Fin 64), iblk m c 1 t (ix2 p k) = V m c main_arg2 (ix2 p k) := fun p k => by
      show V m c main_arg2 (((cfg0.win 1).blk t).view.emb (ix2 p k)) = _
      rw [emb1]
    have hdist : iblk m c 2 t (ix3 (0 : Fin 1) b c') = V m c main_arg1 (ix3 n r c') := by
      show V m c main_arg1 (((cfg0.win 2).blk t).view.emb (ix3 (0 : Fin 1) b c')) = _
      rw [emb2]
    rw [KernelValue.stored_eq (iblk m c 0 t) (iblk m c 1 t) (iblk m c 2 t) a b c' (by rw [hdist]; exact hd _), emb3, hdist]
    simp only [hq, hw]
    rfl
  funext j
  exact key j

/-- The 128 output blocks tile the result array: index `(n, h, i, j)` lies in the block of the point for batch `n`
    and row tile `i / 64`. -/
theorem cover (i : S4x8x2048x2048.Idx) :
    ∃ t : Fin cfg0.N, (cfg0.win 3).flush t = true ∧ i ∈ ((cfg0.win 3).blk t).view.set := by
  have h0 : (i 0).val < 4 := (i 0).isLt
  have h1 : (i 1).val < 8 := (i 1).isLt
  have h2 : (i 2).val < 2048 := (i 2).isLt
  have h3 : (i 3).val < 2048 := (i 3).isLt
  obtain ⟨t, ht⟩ := idx_onto ⟨(i 0).val, h0⟩ ⟨(i 2).val / 64, by omega⟩
  have q0 : win0_3.index t (0 : Fin 4) = (i 0).val := congrFun ht 0
  have q1 : win0_3.index t (1 : Fin 4) = 0 := congrFun ht 1
  have q2 : win0_3.index t (2 : Fin 4) = (i 2).val / 64 := congrFun ht 2
  have q3 : win0_3.index t (3 : Fin 4) = 0 := congrFun ht 3
  refine ⟨t, flush0_3 t, ?_⟩
  show i ∈ ((View.whole main_v0).slice (win0_3.rect t)).set
  rw [View.set_slice_whole, Rect.mem_set_unit]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 8 ≤ (i 1).val ∧ (i 1).val < win0_3.index t (1 : Fin 4) * 8 + 8; omega
  | ⟨2, _⟩ => show win0_3.index t (2 : Fin 4) * 64 ≤ (i 2).val ∧ (i 2).val < win0_3.index t (2 : Fin 4) * 64 + 64; omega
  | ⟨3, _⟩ => show win0_3.index t (3 : Fin 4) * 2048 ≤ (i 3).val ∧ (i 3).val < win0_3.index t (3 : Fin 4) * 2048 + 2048; omega

/-- THE RESULT ARRAY after the run is the specification's function of the argument arrays. -/
theorem final (c : Dev nD) (hd : NonNeg (V m c main_arg1)) :
    (dats m 0 c).arrAt 3 cfg0.N = G (V m c main_arg0) (V m c main_arg1) (V m c main_arg2) :=
  (dats m 0 c).arrAt_eq_of_cover 3 (G (V m c main_arg0) (V m c main_arg1) (V m c main_arg2))
    (fun t _ => flushed_eq m c hd t) cover

end Cert.RelPos.KernelArray

end
-- ==== Proof.RefValue.lean ====
/-
  The reference as a value: what its result array holds, index by index.

  The reference projects every query row onto all 129 table rows with one `dot_general` (the scores), clips the
  distances at 128, and indexes the scores along their last axis by the clipped distances. jnp's indexing first
  wraps a negative index (adds 129 to it), then marks the indices outside `[0, 128]`, gathers with every start index
  clamped into the axis, and puts NaN where the mark is set. For a non-negative distance the clipped word lies in
  `[0, 128]`: the wrap leaves it alone, the mark is clear everywhere (so the reduction by `and` over the index
  vector's unit axis gives 1), the clamp leaves it alone, and the select keeps the gathered score. So the result at
  `(n, h, i, j)` is the score of query row `(n, h, i)` against table row `clip dist[n, i, j]`: the specification.
-/
import proofs.«425823_j1580547967908_1_alg».proof.Proof.RefReadP
import proofs.«425823_j1580547967908_1_alg».proof.Proof.Spec
import Idealize.ShloMosaic.Lib.ValueIdx
import Idealize.ShloMosaic.PureOps.Reduce

set_option maxRecDepth 16384

noncomputable section

namespace Cert.RelPos.RefValue

open Cert.ReferenceIdeal Cert.ReferenceIdeal.Gen Cert.ReferenceIdeal.ReadP
open Idealize.ShloMosaic Idealize.ShloMosaic.ValueIdx Cert.RelPos
open scoped BigOperators

variable {α : Type}

/-! ## The gather along the last axis, and a reduction by `and` of ones -/

/-- Indexing the scores `[4, 8, 2048, 129]` along their last axis: result element `(a, b, c, e)` is the operand at
    `(a, b, c, p)` with `p` the start index `idx[a, b, c, e, 0]`, read signed and clamped into `[0, 128]`. The three
    leading axes are batching axes (the result's coordinates carry over), the last is collapsed and start-indexed. -/
theorem gather_apply (x : S4x8x2048x129.Idx → α) (idx : IVec S4x8x2048x2048x1 32)
    (a : Fin 4) (b : Fin 8) (c : Fin 2048) (e : Fin 2048) :
    Host.gather gather_S4x8x2048x129_S4x8x2048x2048x1_S4x8x2048x2048_n_3_012_012_3_4_1111 x idx (ix4 a b c e)
      = x (ix4 a b c ⟨min (idx (ix5 a b c e (0 : Fin 1))).toInt.toNat 128, by omega⟩) := by
  unfold Host.gather
  congr 1
  funext ax
  apply Fin.ext
  match ax with
  | ⟨0, _⟩ =>
    show GatherDims.start _ _ idx 0 + GatherDims.batchCoord _ _ 0 + GatherDims.offCoord _ _ 0 = a.val
    rw [GatherDims.offCoord_eq_zero _ _ _ (fun h => ((GatherDims.mem_sKept _ _).mp h).2 (by decide)),
      GatherDims.start_batching _ _ _ _ (by decide)]
    simp only [Nat.zero_add, Nat.add_zero]
    unfold GatherDims.batchCoord
    rw [dif_pos (by decide)]
    rfl
  | ⟨1, _⟩ =>
    show GatherDims.start _ _ idx 1 + GatherDims.batchCoord _ _ 1 + GatherDims.offCoord _ _ 1 = b.val
    rw [GatherDims.offCoord_eq_zero _ _ _ (fun h => ((GatherDims.mem_sKept _ _).mp h).2 (by decide)),
      GatherDims.start_batching _ _ _ _ (by decide)]
    simp only [Nat.zero_add, Nat.add_zero]
    unfold GatherDims.batchCoord
    rw [dif_pos (by decide)]
    rfl
  | ⟨2, _⟩ =>
    show GatherDims.start _ _ idx 2 + GatherDims.batchCoord _ _ 2 + GatherDims.offCoord _ _ 2 = c.val
    rw [GatherDims.offCoord_eq_zero _ _ _ (fun h => ((GatherDims.mem_sKept _ _).mp h).2 (by decide)),
      GatherDims.start_batching _ _ _ _ (by decide)]
    simp only [Nat.zero_add, Nat.add_zero]
    unfold GatherDims.batchCoord
    rw [dif_pos (by decide)]
    rfl
  | ⟨3, _⟩ =>
    show GatherDims.start _ _ idx 3 + GatherDims.batchCoord _ _ 3 + GatherDims.offCoord _ _ 3
      = min (idx (ix5 a b c e (0 : Fin 1))).toInt.toNat 128
    rw [GatherDims.offCoord_eq_zero _ _ _ (fun h => ((GatherDims.mem_sKept _ _).mp h).1 (by decide)),
      GatherDims.batchCoord_eq_zero _ _ _ (by decide)]
    simp only [Nat.add_zero]
    unfold GatherDims.start
    rw [dif_pos (by decide)]
    have hsi : gather_S4x8x2048x129_S4x8x2048x2048x1_S4x8x2048x2048_n_3_012_012_3_4_1111.siIdx (ix4 a b c e) ⟨List.idxOf (3 : Fin 4) gather_S4x8x2048x129_S4x8x2048x2048x1_S4x8x2048x2048_n_3_012_012_3_4_1111.startIndexMap,
        List.idxOf_lt_length_iff.2 (by decide)⟩ = ix5 a b c e (0 : Fin 1) := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl

/-- A reduction by `and` from 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  generalize ((List.finRange s.numel).map s.rowMajor.symm).filter (fun i => h.drop i = j) = l
  induction l with
  | nil => rfl
  | cons i l ih =>
    rw [List.foldl_cons, hx i]
    exact ih

/-! ## The clipped word of a non-negative distance: its comparisons and its clamp -/

section Clip
variable {d : BitVec 32} (hd : 0 ≤ d.toInt)
include hd

/-- The clipped word's signed value is the clipped row number. -/
theorem clip_toInt : (IntOp.minsi d 128#32).toInt = ((clipPos d).val : ℤ) := by
  have h1 := minsi_toNat hd
  have h2 := (clipPos d).isLt
  rw [BitVec.toInt_eq_toNat_cond, if_pos (by omega), h1]

theorem clip_not_neg : IntOp.cmpi .slt (IntOp.minsi d 128#32) 0#32 = 0#1 := by
  show BitVec.ofBool ((IntOp.minsi d 128#32).slt 0#32) = 0#1
  have h0 : (0#32 : BitVec 32).toInt = 0 := by decide
  have : (IntOp.minsi d 128#32).slt 0#32 = false := by
    cases hb : (IntOp.minsi d 128#32).slt 0#32 with
    | false => rfl
    | true =>
      have := BitVec.slt_iff_toInt_lt.mp hb
      rw [clip_toInt hd, h0] at this
      omega
  rw [this]; rfl

theorem clip_ge_zero : IntOp.cmpi .sge (IntOp.minsi d 128#32) 0#32 = 1#1 := by
  show BitVec.ofBool ((0#32 : BitVec 32).sle (IntOp.minsi d 128#32)) = 1#1
  have h0 : (0#32 : BitVec 32).toInt = 0 := by decide
  have : (0#32 : BitVec 32).sle (IntOp.minsi d 128#32) = true :=
    BitVec.sle_iff_toInt_le.mpr (by rw [clip_toInt hd, h0]; omega)
  rw [this]; rfl

theorem clip_le_last : IntOp.cmpi .sle (IntOp.minsi d 128#32) 128#32 = 1#1 := by
  show BitVec.ofBool ((IntOp.minsi d 128#32).sle 128#32) = 1#1
  have h128 : (128#32 : BitVec 32).toInt = 128 := by decide
  have h2 := (clipPos d).isLt
  have : (IntOp.minsi d 128#32).sle 128#32 = true :=
    BitVec.sle_iff_toInt_le.mpr (by rw [clip_toInt hd, h128]; omega)
  rw [this]; rfl

/-- Clamping the clipped word into `[0, 128]` changes nothing: it is the clipped row number. -/
theorem clip_clamp : min (IntOp.minsi d 128#32).toInt.toNat 128 = (clipPos d).val := by
  have h2 := (clipPos d).isLt
  rw [clip_toInt hd]
  omega

end Clip

/-! ## The stages at an index -/

/-- The clipped distances broadcast over the heads: at `(n, h, i, j)` the signed minimum of `dist[n, i, j]` and 128. -/
theorem clipped_apply (x1 : IVec S4x2048x2048 32) (n : Fin 4) (h : Fin 8) (i j : Fin 2048) :
    val_main_v4 (F := Ideal) x1 (ix4 n h i j) = IntOp.minsi (x1 (ix3 n i j)) 128#32 := by
  have e : idx_main_v3 (idx_main_v4 (ix4 n h i j)) = ix3 n i j := by
    funext a
    match a with
    | ⟨0, _⟩ => rfl
    | ⟨1, _⟩ => rfl
    | ⟨2, _⟩ => rfl
  rw [val_main_v4_apply, val_main_v3_apply, val_main_v2_apply, val_main_v1_apply, val_main_c_apply, e]

/-- The negative-index wrap leaves a non-negative clipped word alone. -/
theorem wrapped_apply (x1 : IVec S4x2048x2048 32) (hd : NonNeg x1) (n : Fin 4) (h : Fin 8) (i j : Fin 2048) :
    val_main_call0_v4 (F := Ideal) x1 (ix4 n h i j) = IntOp.minsi (x1 (ix3 n i j)) 128#32 := by
  rw [val_main_call0_v4_apply, val_main_call0_v1_apply, val_main_call0_v0_apply, val_main_call0_c_apply, clipped_apply,
    clip_not_neg (hd _), select_zero]

/-- The start indices `[4, 8, 2048, 2048, 1]` are the wrapped words with a unit axis added. -/
theorem starts_apply (x1 : IVec S4x2048x2048 32) (hd : NonNeg x1) (n : Fin 4) (h : Fin 8) (i j : Fin 2048) (u : Fin 1) :
    val_main_call0_v5 (F := Ideal) x1 (ix5 n h i j u) = IntOp.minsi (x1 (ix3 n i j)) 128#32 := by
  rw [← wrapped_apply x1 hd n h i j]
  unfold val_main_call0_v5
  exact shapeCast_apply _ shapeCasts_S4x8x2048x2048_S4x8x2048x2048x1 _ _ (by
    have hu : u.val = 0 := by omega
    rw [Shape.rowMajor_val_four, Shape.rowMajor_val_five]
    show ((n.val * 8 + h.val) * 2048 + i.val) * 2048 + j.val = ((((n.val * 8 + h.val) * 2048 + i.val) * 2048 + j.val) * 1 + u.val)
    omega)

/-- No start index is marked out of range. -/
theorem inrange_apply (x1 : IVec S4x2048x2048 32) (hd : NonNeg x1) (y : S4x8x2048x2048x1.Idx) :
    val_main_call0_v11 (F := Ideal) x1 y = 1#1 := by
  obtain ⟨n, h, i, j, u, rfl⟩ : ∃ (n : Fin 4) (h : Fin 8) (i j : Fin 2048) (u : Fin 1), y = ix5 n h i j u :=
    ⟨y 0, y 1, y 2, y 3, y 4, eq_ix5 y⟩
  rw [val_main_call0_v11_apply, val_main_call0_v7_apply, val_main_call0_v10_apply, starts_apply x1 hd,
    val_main_call0_v6_apply, val_main_call0_c_2_apply, val_main_call0_v9_apply, val_main_call0_v8_apply,
    val_main_call0_c_1_apply, clip_ge_zero (hd _), clip_le_last (hd _)]
  rfl

/-- The scores at `(n, h, i, p)`: the inner product of query row `(n, h, i)` with table row `p`. -/
theorem scores_apply (x0 : FVec Ideal S4x8x2048x64 .f32) (x2 : FVec Ideal S129x64 .f32)
    (n : Fin 4) (h : Fin 8) (i : Fin 2048) (p : Fin 129) :
    val_main_v0 (F := Ideal) x0 x2 (ix4 n h i p) = score x0 x2 n h i p := by
  rw [val_main_v0_apply]
  unfold score
  refine Finset.sum_congr rfl fun k _ => ?_
  have el : lidx_main_v0 (ix4 n h i p) k = ix4 n h i k := by
    funext a
    match a with
    | ⟨0, _⟩ => rfl
    | ⟨1, _⟩ => rfl
    | ⟨2, _⟩ => rfl
    | ⟨3, _⟩ => rfl
  have er : ridx_main_v0 (ix4 n h i p) k = ix2 p k := by
    funext a
    match a with
    | ⟨0, _⟩ => rfl
    | ⟨1, _⟩ => rfl
  rw [el, er]

/-! ## The reference is the specification -/

/-- THE REFERENCE'S RESULT, for non-negative distances, is the specification's function of the arguments. -/
theorem ref_eq_G (x0 : FVec Ideal S4x8x2048x64 .f32) (x1 : IVec S4x2048x2048 32) (x2 : FVec Ideal S129x64 .f32)
    (hd : NonNeg x1) : val_main_v5 (F := Ideal) x0 x1 x2 = G x0 x1 x2 := by
  funext y
  obtain ⟨n, h, i, j, rfl⟩ : ∃ (n : Fin 4) (h : Fin 8) (i j : Fin 2048), y = ix4 n h i j :=
    ⟨y 0, y 1, y 2, y 3, eq_ix4 y⟩
  have hmark : val_main_call0_v12 (F := Ideal) x1 (ix4 n h i j) = 1#1 := by
    unfold val_main_call0_v12
    exact reduce_andi_ones _ _ _ _ (inrange_apply x1 hd) (fun _ => rfl) _
  have hgather : val_main_call0_v13 (F := Ideal) x0 x1 x2 (ix4 n h i j)
      = score x0 x2 n h i (clipPos (x1 (ix3 n i j))) := by
    have hp : ∀ hlt, (⟨min (val_main_call0_v5 (F := Ideal) x1 (ix5 n h i j (0 : Fin 1))).toInt.toNat 128, hlt⟩ : Fin 129)
        = clipPos (x1 (ix3 n i j)) := fun hlt => Fin.ext (by
      show min (val_main_call0_v5 (F := Ideal) x1 (ix5 n h i j (0 : Fin 1))).toInt.toNat 128 = _
      rw [starts_apply x1 hd, clip_clamp (hd _)])
    unfold val_main_call0_v13
    rw [gather_apply, hp, scores_apply]
  rw [val_main_v5_apply, hmark, hgather, select_one]
  rfl

end Cert.RelPos.RefValue

end
-- ==== Proof.lean ====
/-
  The certificate of the relative-position scores kernel against its jnp reference, over the extended reals.

  Both programs take a query `q : [4, 8, 2048, 64]`, integer distances `dist : [4, 2048, 2048]` and a table
  `w : [129, 64]`, and return, at `(n, h, i, j)`, the inner product of query row `(n, h, i)` with the table row
  numbered by `dist[n, i, j]` clipped from above at 128 (Proof/Spec.lean's `G`). The reference indexes the projected
  scores by the clipped distance; the kernel, tile by tile, sums over all 129 table rows the score times the
  indicator that the clipped distance is that row. The two agree exactly where the clipped distance is one of the
  129 candidates, that is, for non-negative distances — the precondition's third conjunct, beside the finiteness of
  the float inputs (which the value claim never uses: a product with a zero indicator is zero for every extended
  real, so no cancellation is needed).

  The parts: Proof/KernelValue.lean (one grid point's stored block at an index), Proof/KernelArray.lean (the 128
  blocks tile the result array), Proof/RefValue.lean (the reference's gather, wrap and range mark at an index),
  Proof/Pre.lean (the precondition gives non-negative distances), over the generated frames and value leg of the
  kernel and the reference's run and per-operation stages.
-/
import proofs.«425823_j1580547967908_1_alg».proof.Defs
import proofs.«425823_j1580547967908_1_alg».proof.Proof.Gen.Kernel
import proofs.«425823_j1580547967908_1_alg».proof.Proof.Gen.Kernel.Skeleton
import proofs.«425823_j1580547967908_1_alg».proof.Proof.Gen.Kernel.Launch
import proofs.«425823_j1580547967908_1_alg».proof.Proof.Gen.Kernel.Points
import proofs.«425823_j1580547967908_1_alg».proof.Proof.Gen.Kernel.Frame
import proofs.«425823_j1580547967908_1_alg».proof.Proof.Gen.KernelIdeal
import proofs.«425823_j1580547967908_1_alg».proof.Proof.Gen.KernelIdeal.Skeleton
import proofs.«425823_j1580547967908_1_alg».proof.Proof.Gen.KernelIdeal.Launch
import proofs.«425823_j1580547967908_1_alg».proof.Proof.Gen.KernelIdeal.Points
import proofs.«425823_j1580547967908_1_alg».proof.Proof.Gen.KernelIdeal.Frame
import proofs.«425823_j1580547967908_1_alg».proof.Proof.Gen.ReferenceIdeal
import proofs.«425823_j1580547967908_1_alg».proof.Proof.Gen.Pre_finite_inputs
import proofs.«425823_j1580547967908_1_alg».proof.Proof.Gen.KernelIdeal.Value
import proofs.«425823_j1580547967908_1_alg».proof.Proof.RefRunP
import proofs.«425823_j1580547967908_1_alg».proof.Proof.RefReadP
import proofs.«425823_j1580547967908_1_alg».proof.Proof.Spec
import proofs.«425823_j1580547967908_1_alg».proof.Proof.Pre
import proofs.«425823_j1580547967908_1_alg».proof.Proof.KernelArray
import proofs.«425823_j1580547967908_1_alg».proof.Proof.RefValue
import Idealize.ShloMosaic.Adequacy
import Idealize.ShloMosaic.Init

noncomputable section

namespace Cert.Proof

open Idealize.ShloMosaic Idealize.SL.Sem Cert.RelPos

/-- The kernel as printed runs to the end without a fault and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing in this kernel. -/
theorem preserves : Cert.preserves_Kernel_KernelIdeal := trivial

/-- Both programs, from memories that agree on the arguments, end with the result array at the specification's
    function `G` of the arguments: the kernel block by block over its grid, the reference through its gather; the
    distances are non-negative by the precondition. -/
theorem algebraic : Cert.algebraic_KernelIdeal_ReferenceIdeal := by
  intro m ρ m' ρ' hpre hagree
  have hnn : ∀ c : Dev Cert.KernelIdeal.nD,
      NonNeg (m ((c.tc : Thread Cert.KernelIdeal.nD Cert.KernelIdeal.τ).loc Cert.KernelIdeal.main_arg1)) :=
    fun c => Cert.RelPos.Pre.nonneg_of_pre _ _ _ (hpre c)
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.RelPos.KernelArray.final m c (hnn c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v5_eq, (hagree c).1, (hagree c).2.1, (hagree c).2.2]
    exact Cert.RelPos.RefValue.ref_eq_G _ _ _ (hnn c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
